-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16 : Shape := ⟨1, ![16]⟩
abbrev S768x768 : Shape := ⟨2, ![768, 768]⟩
abbrev S768 : Shape := ⟨1, ![768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S16x512x768 .f32) (main_arg1 : FVec F S16x512x768 .f32) (main_arg2 : IVec S16 32) (main_arg3 : FVec F S768x768 .f32) (main_arg4 : FVec F S768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x512x768 .f32 := Host.absf main_arg1
  let main_cst_0 : FVec F S_ .f32 := constant S_ .f32 0x7F800000#32
  let main_v5 : FVec F S16x512x768 .f32 := broadcastInDim S16x512x768 ![] bcast_S_S16x512x768 main_cst_0
  let main_v6 : IVec S16x512x768 1 := cmpf .olt main_v4 main_v5
  let main_c_1 : IVec S_ 1 := constantI S_ 1 1#1
  let main_v7 : IVec S_ 1 := (fun x v => Host.reduce IntOp.andi x v reducesTo_S16x512x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S16x512x768 : Shape := ⟨3, ![16, 512, 768]⟩
abbrev S16 : Shape := ⟨1, ![16]⟩
abbrev S768x768 : Shape := ⟨2, ![768, 768]⟩
abbrev S768 : Shape := ⟨1, ![768]⟩
abbrev S1x512x768 : Shape := ⟨3, ![1, 512, 768]⟩
abbrev S1 : Shape := ⟨1, ![1]⟩
abbrev S512x768 : Shape := ⟨2, ![512, 768]⟩
abbrev S1x768 : Shape := ⟨2, ![1, 768]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 1
  | _ => 0

abbrev bufTy : (tb : Table) → Fin (tcTables nBuf tb) → BufTy
  | .hbm, ⟨0, _⟩ => ⟨S16x512x768, .f32⟩
  | .hbm, ⟨1, _⟩ => ⟨S16x512x768, .f32⟩
  | .hbm, ⟨2, _⟩ => ⟨S768x768, .f32⟩
  | .hbm, ⟨3, _⟩ => ⟨S768, .f32⟩
  | .hbm, ⟨4, _⟩ => ⟨S16x512x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S768x768, .f32⟩
  | .local _ .vmem, ⟨5, _⟩ => ⟨S768, .f32⟩
  | .local _ .vmem, ⟨6, _⟩ => ⟨S1x512x768, .f32⟩
  | .local _ .vmem, ⟨7, _⟩ => ⟨S1x512x768, .f32⟩
  | .local _ .smem, ⟨0, _⟩ => ⟨S16, .i32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  numel1_S1 : S1.numel = 1
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  iota_S512x512_d1_w32 : S512x512.Iotas .tc 32 [1]
  natLt_1_32 : 1 < 32
  reduces_S512x512_S512 : S512x512.Reduces [1] S512
  shapeCasts_S512_S512x1 : S512.ShapeCasts S512x1
  broadcasts_S512x1_S512x512 : S512x1.Broadcasts S512x512
  shapeCasts_S512x768_S1x512x768 : S512x768.ShapeCasts S1x512x768
  dot_S512x768_S768x768_S512x768_1_1_0_0_n_n_wf : DotDims.WF S512x768 S768x768 S512x768 [1] [1] [0] [0] [] []
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S16x512x768.size a
  hwx0_0 : ∀ i : grid0.Coords, EltTy.bits .f32 = 32 ∨ (Rect.block (s := S16x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S16x512x768.size a
  hwx0_1 : ∀ i : grid0.Coords, EltTy.bits .f32 = 32 ∨ (Rect.block (s := S16x512x768) S1x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S16x512x768.size a
  hwx0_4 : ∀ i : grid0.Coords, EltTy.bits .f32 = 32 ∨ (Rect.block (s := S16x512x768) S1x512x768.size (cc0_transform_4 i) (hinb0_4 i)).WholeWords (EltTy.packing .f32)

variable [Facts₀]

def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev spec0_0 : Pipeline.WinSpec sig grid0.rank :=
  Pipeline.WinSpec.ofSpec (Memref.whole main_arg0) S1x512x768.size reads0_0 false false 2 stage0_0 sem0_0 nbuf0_0 hstage0_0

abbrev spec0_1 : Pipeline.WinSpec sig grid0.rank :=
  Pipeline.WinSpec.ofSpec (Memref.whole main_arg1) S1x512x768.size reads0_1 false false 2 stage0_1 sem0_1 nbuf0_1 hstage0_1

abbrev spec0_2 : Pipeline.WinSpec sig grid0.rank :=
  Pipeline.WinSpec.ofSpec (Memref.whole main_arg3) S768x768.size reads0_2 false true 1 stage0_2 sem0_2 nbuf0_2 hstage0_2

abbrev spec0_3 : Pipeline.WinSpec sig grid0.rank :=
  Pipeline.WinSpec.ofSpec (Memref.whole main_arg4) S768.size reads0_3 false true 1 stage0_3 sem0_3 nbuf0_3 hstage0_3

abbrev spec0_4 : Pipeline.WinSpec sig grid0.rank :=
  Pipeline.WinSpec.ofSpec (Memref.whole main_v0) S1x512x768.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16x512x768 : Shape := ⟨3, ![16, 512, 768]⟩
abbrev S16 : Shape := ⟨1, ![16]⟩
abbrev S768x768 : Shape := ⟨2, ![768, 768]⟩
abbrev S768 : Shape := ⟨1, ![768]⟩
abbrev S1x1x768 : Shape := ⟨3, ![1, 1, 768]⟩
abbrev S16x512x512 : Shape := ⟨3, ![16, 512, 512]⟩
abbrev S512 : Shape := ⟨1, ![512]⟩
abbrev S1x1x512 : Shape := ⟨3, ![1, 1, 512]⟩
abbrev S16x1x1 : Shape := ⟨3, ![16, 1, 1]⟩
abbrev S16x1x512 : Shape := ⟨3, ![16, 1, 512]⟩
abbrev S_ : Shape := ⟨0, ![]⟩
abbrev S16x512 : Shape := ⟨2, ![16, 512]⟩
abbrev S16x512x1 : Shape := ⟨3, ![16, 512, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x512x768, .f32⟩
  | .hbm, ⟨2, _⟩ => ⟨S16, .i32⟩
  | .hbm, ⟨3, _⟩ => ⟨S768x768, .f32⟩
  | .hbm, ⟨4, _⟩ => ⟨S768, .f32⟩
  | .hbm, ⟨5, _⟩ => ⟨S16x512x768, .f32⟩
  | .hbm, ⟨6, _⟩ => ⟨S1x1x768, .f32⟩
  | .hbm, ⟨7, _⟩ => ⟨S16x512x768, .f32⟩
  | .hbm, ⟨8, _⟩ => ⟨S16x512x768, .f32⟩
  | .hbm, ⟨9, _⟩ => ⟨S16x512x512, .f32⟩
  | .hbm, ⟨10, _⟩ => ⟨S512, .i32⟩
  | .hbm, ⟨11, _⟩ => ⟨S1x1x512, .i32⟩
  | .hbm, ⟨12, _⟩ => ⟨S16x1x1, .i32⟩
  | .hbm, ⟨13, _⟩ => ⟨S16x1x512, .i32⟩
  | .hbm, ⟨14, _⟩ => ⟨S16x1x512, .i32⟩
  | .hbm, ⟨15, _⟩ => ⟨S16x1x512, .i1⟩
  | .hbm, ⟨16, _⟩ => ⟨S16x1x512, .f32⟩
  | .hbm, ⟨17, _⟩ => ⟨S16x512x512, .f32⟩
  | .hbm, ⟨18, _⟩ => ⟨S16x512x512, .f32⟩
  | .hbm, ⟨19, _⟩ => ⟨S_, .f32⟩
  | .hbm, ⟨20, _⟩ => ⟨S16x512, .f32⟩
  | .hbm, ⟨21, _⟩ => ⟨S_, .f32⟩
  | .hbm, ⟨22, _⟩ => ⟨S16x512, .f32⟩
  | .hbm, ⟨23, _⟩ => ⟨S16x512, .f32⟩
  | .hbm, ⟨24, _⟩ => ⟨S16x512x1, .f32⟩
  | .hbm, ⟨25, _⟩ => ⟨S16x512x512, .f32⟩
  | .hbm, ⟨26, _⟩ => ⟨S16x512x512, .f32⟩
  | .hbm, ⟨27, _⟩ => ⟨S16x512x512, .f32⟩
  | .hbm, ⟨28, _⟩ => ⟨S_, .f32⟩
  | .hbm, ⟨29, _⟩ => ⟨S16x512, .f32⟩
  | .hbm, ⟨30, _⟩ => ⟨S16x512x1, .f32⟩
  | .hbm, ⟨31, _⟩ => ⟨S16x512x512, .f32⟩
  | .hbm, ⟨32, _⟩ => ⟨S16x512x512, .f32⟩
  | .hbm, ⟨33, _⟩ => ⟨S16x512x512, .f32⟩
  | .hbm, ⟨34, _⟩ => ⟨S16x512x512, .f32⟩
  | .hbm, ⟨35, _⟩ => ⟨S_, .f32⟩
  | .hbm, ⟨36, _⟩ => ⟨S16x512, .f32⟩
  | .hbm, ⟨37, _⟩ => ⟨S16x512x1, .f32⟩
  | .hbm, ⟨38, _⟩ => ⟨S_, .f32⟩
  | .hbm, ⟨39, _⟩ => ⟨S16x512x1, .f32⟩
  | .hbm, ⟨40, _⟩ => ⟨S16x512x1, .f32⟩
  | .hbm, ⟨41, _⟩ => ⟨S16x512x512, .f32⟩
  | .hbm, ⟨42, _⟩ => ⟨S16x512x512, .f32⟩
  | .hbm, ⟨43, _⟩ => ⟨S16x512x768, .f32⟩
  | .hbm, ⟨44, _⟩ => ⟨S16x512x768, .f32⟩
  | .hbm, ⟨45, _⟩ => ⟨S1x1x768, .f32⟩
  | .hbm, ⟨46, _⟩ => ⟨S16x512x768, .f32⟩
  | .hbm, ⟨47, _⟩ => ⟨S16x512x768, .f32⟩
  | .hbm, ⟨48, _⟩ => ⟨S_, .f32⟩
  | .hbm, ⟨49, _⟩ => ⟨S16x512x768, .f32⟩
  | .hbm, ⟨50, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_cst : Ref sig .tc := ⟨.hbm, 48, rfl⟩
abbrev main_call0_v0 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x512x768_0_1_2 : S1x1x768.BroadcastsInDim S16x512x768 (![0, 1, 2] : Fin 3 → Fin S16x512x768.rank)
  bcast_S512_S1x1x512_2 : S512.BroadcastsInDim S1x1x512 (![2] : Fin 1 → Fin S1x1x512.rank)
  bcast_S16_S16x1x1_0 : S16.BroadcastsInDim S16x1x1 (![0] : Fin 1 → Fin S16x1x1.rank)
  bcast_S1x1x512_S16x1x512_0_1_2 : S1x1x512.BroadcastsInDim S16x1x512 (![0, 1, 2] : Fin 3 → Fin S16x1x512.rank)
  bcast_S16x1x1_S16x1x512_0_1_2 : S16x1x1.BroadcastsInDim S16x1x512 (![0, 1, 2] : Fin 3 → Fin S16x1x512.rank)
  bcast_S16x1x512_S16x512x512_0_1_2 : S16x1x512.BroadcastsInDim S16x512x512 (![0, 1, 2] : Fin 3 → Fin S16x512x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512x1 : S_.BroadcastsInDim S16x512x1 (![] : Fin 0 → Fin S16x512x1.rank)
  bcast_S_S16x512x768 : S_.BroadcastsInDim S16x512x768 (![] : Fin 0 → Fin S16x512x768.rank)
  dot_S16x512x768_S768x768_S16x512x768_2_1_01_0_n_n_wf : DotDims.WF S16x512x768 S768x768 S16x512x768 [2] [1] [0, 1] [0] [] []
  dot_S16x512x768_S16x512x768_S16x512x512_2_2_1_1_0_0_wf : DotDims.WF S16x512x768 S16x512x768 S16x512x512 [2] [2] [1] [1] [0] [0]
  dot_S16x512x512_S16x512x768_S16x512x768_2_1_1_2_0_0_wf : DotDims.WF S16x512x512 S16x512x768 S16x512x768 [2] [1] [1] [2] [0] [0]

variable [Facts₀]

def dot_S16x512x768_S768x768_S16x512x768_2_1_01_0_n_n : DotDims S16x512x768 S768x768 S16x512x768 where
  lhsContracting := [2]
  rhsContracting := [1]
  lhsNonContracting := [0, 1]
  rhsNonContracting := [0]
  lhsBatch := []
  rhsBatch := []
  wf := dot_S16x512x768_S768x768_S16x512x768_2_1_01_0_n_n_wf
def dot_S16x512x768_S16x512x768_S16x512x512_2_2_1_1_0_0 : DotDims S16x512x768 S16x512x768 S16x512x512 where
  lhsContracting := [2]
  rhsContracting := [2]
  lhsNonContracting := [1]
  rhsNonContracting := [1]
  lhsBatch := [0]
  rhsBatch := [0]
  wf := dot_S16x512x768_S16x512x768_S16x512x512_2_2_1_1_0_0_wf
def dot_S16x512x512_S16x512x768_S16x512x768_2_1_1_2_0_0 : DotDims S16x512x512 S16x512x768 S16x512x768 where
  lhsContracting := [2]
  rhsContracting := [1]
  lhsNonContracting := [1]
  rhsNonContracting := [2]
  lhsBatch := [0]
  rhsBatch := [0]
  wf := dot_S16x512x512_S16x512x768_S16x512x768_2_1_1_2_0_0_wf

class Facts : Prop extends Facts₀ where

variable [Facts]
-- ==== Proof.Attn.lean ====
/-
  Masked, renormalised attention of one batch member, as ONE function on the extended reals.

  For a member with query-side rows `P p ·`, key-side rows `Q q ·` (both 512 × 768), a valid length
  word `len`, a square weight `W` (768 × 768, used as `x ↦ x · Wᵀ`) and a bias `bias`:

    transformed q o = (∑ h, Q q h · W o h) + bias o                  the keys through the linear layer
    score p q       = ∑ h, P p h · transformed q h                   query–key scores
    keep q          = 1 if q < len (signed) else 0                   the length mask
    masked p q      = score p q · keep q
    rowMax p        = max(−∞, max over q of masked p q)              the softmax's shift
    weight p q      = exp (masked p q − rowMax p)
    soft p q        = weight p q / (∑ q', weight p q') · keep q      softmax, masked again
    prob p q        = soft p q / ((∑ q', soft p q') + ε)             renormalised
    context p h     = ∑ q, prob p q · Q q h                          weighted sum of the keys
    result p o      = max ((∑ h, context p h · W o h) + bias o, 0)   linear layer, then ReLU

  Every operation is the exact one on the extended reals; −∞, ε and 0 are kept as the f32 words the
  two programs both spell, so no literal is ever evaluated. Nothing here needs the inputs finite:
  the two programs are compared stage by stage, never by an algebraic law.
-/
import Idealize.ShloMosaic.PureOps.Ideal

noncomputable section

namespace Cert.Attn

open Idealize.ShloMosaic

/-- The word of −∞, from which a row's maximum starts. -/
abbrev negInf : EReal := Ideal.ofBits .f32 0xFF800000#32
/-- The word of the renormalisation's ε (the f32 nearest 1e-13). -/
abbrev eps : EReal := Ideal.ofBits .f32 0x29E12E13#32
/-- The word of +0. -/
abbrev zero : EReal := Ideal.ofBits .f32 0x00000000#32

variable (P Q : Fin 512 → Fin 768 → EReal) (len : BitVec 32) (W : Fin 768 → Fin 768 → EReal) (bias : Fin 768 → EReal)

/-- The keys through the linear layer: row `q` of `Q · Wᵀ + bias`. -/
def transformed (q : Fin 512) (o : Fin 768) : EReal := (∑ h : Fin 768, Q q h * W o h) + bias o

/-- The score of query row `p` against transformed key row `q`. -/
def score (p q : Fin 512) : EReal := ∑ h : Fin 768, P p h * transformed Q W bias q h

/-- The length mask at key position `q`: the bit of `q < len` (signed words) as 0 or 1. -/
def keep (q : Fin 512) : EReal := FloatOps.uitofp (F := Ideal) .f32 (IntOp.cmpi .slt (BitVec.ofNat 32 q.val) len)

/-- Scores with the positions past the length zeroed. -/
def masked (p q : Fin 512) : EReal := score P Q W bias p q * keep len q

/-- The shift of row `p`'s softmax: the maximum of its masked scores, taken from −∞ and once more against −∞. -/
def rowMax (p : Fin 512) : EReal :=
  max negInf ((Finset.univ : Finset (Fin 512)).fold max negInf fun q => masked P Q len W bias p q)

/-- The unnormalised softmax weight. -/
def weight (p q : Fin 512) : EReal := Ideal.exp (masked P Q len W bias p q - rowMax P Q len W bias p)

/-- The softmax of the masked scores, masked again. -/
def soft (p q : Fin 512) : EReal :=
  Ideal.div (weight P Q len W bias p q) (∑ q' : Fin 512, weight P Q len W bias p q') * keep len q

/-- The renormalised probabilities: each row divided by its sum plus ε. -/
def prob (p q : Fin 512) : EReal :=
  Ideal.div (soft P Q len W bias p q) ((∑ q' : Fin 512, soft P Q len W bias p q') + eps)

/-- The probabilities' weighted sum of the key rows. -/
def context (p : Fin 512) (h : Fin 768) : EReal := ∑ q : Fin 512, prob P Q len W bias p q * Q q h

/-- The member's result: the context through the same linear layer, then ReLU. -/
def result (p : Fin 512) (o : Fin 768) : EReal :=
  max ((∑ h : Fin 768, context P Q len W bias p h * W o h) + bias o) zero

end Cert.Attn

end
-- ==== Proof.RefStages.lean ====
/-
  The reference, stage by stage, is the attention of `Attn.lean` on each batch member.

  The reference computes on whole stacks ([16, 512, 768] and [16, 512, 512]); every stage of it, read at
  the index (b, ·, ·), depends only on member `b` of the two activations, on word `b` of the lengths, and on
  the shared weight and bias. Each lemma below reads one stage at explicit coordinates and names it by the
  corresponding function of `Cert.Attn` at member `b`; the last one says the reference's result array is
  `Attn.result` of the member, index by index.
-/
import proofs.«429209_j36197984371338_1_alg».proof.Proof.Gen.ReferenceIdeal.Run
import proofs.«429209_j36197984371338_1_alg».proof.Proof.Gen.ReferenceIdeal.Read
import proofs.«429209_j36197984371338_1_alg».proof.Proof.Attn
import Idealize.ShloMosaic.Lib.ValueIdx
import Idealize.ShloMosaic.PureOps.Ideal.Laws
import Idealize.ShloMosaic.PureOps.Reduce

noncomputable section

namespace Cert.ReferenceIdeal.Stages

open Cert.ReferenceIdeal Cert.ReferenceIdeal.Gen Cert.ReferenceIdeal.Read
open Idealize.ShloMosaic Idealize.ShloMosaic.ValueIdx

/-- Two indices of a literal shape are equal when their coordinates are. -/
macro "coords" : tactic => `(tactic| (funext a; fin_cases a <;> rfl))

variable (x0 x1 : (⟨S16x512x768, .f32⟩ : BufTy).Contents (Elt Ideal)) (x2 : (⟨S16, .i32⟩ : BufTy).Contents (Elt Ideal))
  (x3 : (⟨S768x768, .f32⟩ : BufTy).Contents (Elt Ideal)) (x4 : (⟨S768, .f32⟩ : BufTy).Contents (Elt Ideal))

/-- Member `b` of the query-side activations, of the key-side activations, and its length word; the weight and the
    bias by coordinates. -/
abbrev qry (b : Fin 16) : Fin 512 → Fin 768 → EReal := fun p h => x0 (ix3 b p h)
abbrev key (b : Fin 16) : Fin 512 → Fin 768 → EReal := fun q h => x1 (ix3 b q h)
abbrev len (b : Fin 16) : BitVec 32 := x2 (ix1 b)
abbrev wgt : Fin 768 → Fin 768 → EReal := fun o h => x3 (ix2 o h)
abbrev bia : Fin 768 → EReal := fun o => x4 (ix1 o)

/-- The keys through the linear layer. -/
theorem transformed_at (b : Fin 16) (q : Fin 512) (o : Fin 768) :
    val_main_v3 (F := Ideal) x1 x3 x4 (ix3 b q o) = Attn.transformed (key x1 b) (wgt x3) (bia x4) q o := by
  rw [val_main_v3_apply, val_main_v0_apply, val_main_v2_apply, val_main_v1_apply]
  unfold Attn.transformed
  refine congrArg₂ (· + ·) (Finset.sum_congr rfl fun k _ => ?_) (congrArg x4 (by coords))
  exact congrArg₂ (· * ·) (congrArg x1 (by coords)) (congrArg x3 (by coords))

/-- The scores. -/
theorem score_at (b : Fin 16) (p q : Fin 512) :
    val_main_v4 (F := Ideal) x0 x1 x3 x4 (ix3 b p q) = Attn.score (qry x0 b) (key x1 b) (wgt x3) (bia x4) p q := by
  rw [val_main_v4_apply]
  unfold Attn.score
  refine Finset.sum_congr rfl fun k _ => ?_
  rw [show ridx_main_v4 (ix3 b p q) k = ix3 b q k from by coords, transformed_at]
  exact congrArg (fun t => x0 t * _) (by coords)

/-- The mask, as the reference broadcasts it the first time. -/
theorem keep_at (b : Fin 16) (p q : Fin 512) :
    val_main_v12 (F := Ideal) x2 (ix3 b p q) = Attn.keep (len x2 b) q := by
  rw [val_main_v12_apply, val_main_v11_apply, val_main_v10_apply, val_main_v8_apply, val_main_v6_apply, val_main_v5_apply,
    val_main_v9_apply, val_main_v7_apply]
  unfold Attn.keep
  rw [show idx_main_v7 (idx_main_v9 (idx_main_v12 (ix3 b p q))) = ix1 b from by coords]

/-- The mask, as the reference broadcasts it the second time. -/
theorem keep_at' (b : Fin 16) (p q : Fin 512) :
    val_main_v25 (F := Ideal) x2 (ix3 b p q) = Attn.keep (len x2 b) q := by
  rw [val_main_v25_apply, val_main_v11_apply, val_main_v10_apply, val_main_v8_apply, val_main_v6_apply, val_main_v5_apply,
    val_main_v9_apply, val_main_v7_apply]
  unfold Attn.keep
  rw [show idx_main_v7 (idx_main_v9 (idx_main_v25 (ix3 b p q))) = ix1 b from by coords]

/-- The masked scores. -/
theorem masked_at (b : Fin 16) (p q : Fin 512) :
    val_main_v13 (F := Ideal) x0 x1 x2 x3 x4 (ix3 b p q)
      = Attn.masked (qry x0 b) (key x1 b) (len x2 b) (wgt x3) (bia x4) p q := by
  rw [val_main_v13_apply, score_at, keep_at]
  rfl

/-- The reduced index (b, p) with key position `k` put back is (b, p, k). -/
theorem lift_at (h : S16x512x512.Reduces [2] S16x512) (b : Fin 16) (p : Fin 512) (k : Fin (S16x512x512.size 2)) :
    h.lift (ix2 b p) k = ix3 b p (⟨k.val, k.isLt⟩ : Fin 512) := by
  funext c; apply Fin.ext
  fin_cases c <;> rfl

/-- The row maximum the reference reduces from −∞. -/
theorem fold_at (b : Fin 16) (p : Fin 512) :
    val_main_v14 (F := Ideal) x0 x1 x2 x3 x4 (ix2 b p)
      = (Finset.univ : Finset (Fin 512)).fold max Attn.negInf
          fun q => Attn.masked (qry x0 b) (key x1 b) (len x2 b) (wgt x3) (bia x4) p q := by
  have h : S16x512x512.Reduces [2] S16x512 := by decide
  unfold val_main_v14
  rw [Host.reduce_eq_fold_single FloatOps.maximumf _ _ reducesTo_S16x512x512_S16x512_d2 h h_S_]
  have hf : (val_main_v13 (F := Ideal) x0 x1 x2 x3 x4 ∘ h.lift (ix2 b p))
      = fun q : Fin 512 => Attn.masked (qry x0 b) (key x1 b) (len x2 b) (wgt x3) (bia x4) p q :=
    funext fun k => by
      show val_main_v13 (F := Ideal) x0 x1 x2 x3 x4 (h.lift (ix2 b p) k) = _
      rw [lift_at h b p k, masked_at]
      rfl
  exact congrArg (fun f => Finset.fold max (Ideal.ofBits .f32 0xFF800000#32) f (Finset.univ : Finset (Fin 512))) hf

/-- The softmax's shift. -/
theorem rowMax_at (b : Fin 16) (p : Fin 512) :
    val_main_v16 (F := Ideal) x0 x1 x2 x3 x4 (ix2 b p)
      = Attn.rowMax (qry x0 b) (key x1 b) (len x2 b) (wgt x3) (bia x4) p := by
  rw [val_main_v16_apply, val_main_v15_apply, val_main_cst_0_apply, fold_at]
  rfl

/-- The unnormalised weights. -/
theorem weight_at (b : Fin 16) (p q : Fin 512) :
    val_main_v20 (F := Ideal) x0 x1 x2 x3 x4 (ix3 b p q)
      = Attn.weight (qry x0 b) (key x1 b) (len x2 b) (wgt x3) (bia x4) p q := by
  rw [val_main_v20_apply, val_main_v19_apply, masked_at, val_main_v18_apply, val_main_v17_apply,
    show idx_main_v17 (idx_main_v18 (ix3 b p q)) = ix2 b p from by coords, rowMax_at]
  rfl

/-- A row's sum of weights (the reference adds it to a zero). -/
theorem weightSum_at (b : Fin 16) (p : Fin 512) :
    val_main_v21 (F := Ideal) x0 x1 x2 x3 x4 (ix2 b p)
      = ∑ q : Fin 512, Attn.weight (qry x0 b) (key x1 b) (len x2 b) (wgt x3) (bia x4) p q := by
  rw [val_main_v21_apply, val_main_cst_1_apply]
  show Ideal.ofBits .f32 0x00000000#32 + _ = _
  rw [Ideal.ofBits_zero_f32, zero_add]
  exact Finset.sum_congr rfl fun k _ => by
    rw [show idx_main_v21 (ix2 b p) k = ix3 b p k from by coords, weight_at]

/-- The softmax, masked again. -/
theorem soft_at (b : Fin 16) (p q : Fin 512) :
    val_main_v26 (F := Ideal) x0 x1 x2 x3 x4 (ix3 b p q)
      = Attn.soft (qry x0 b) (key x1 b) (len x2 b) (wgt x3) (bia x4) p q := by
  rw [val_main_v26_apply, val_main_v24_apply, weight_at, val_main_v23_apply, val_main_v22_apply,
    show idx_main_v22 (idx_main_v23 (ix3 b p q)) = ix2 b p from by coords, weightSum_at, keep_at']
  rfl

/-- A row's sum of the masked softmax (again added to a zero). -/
theorem softSum_at (b : Fin 16) (p : Fin 512) :
    val_main_v27 (F := Ideal) x0 x1 x2 x3 x4 (ix2 b p)
      = ∑ q : Fin 512, Attn.soft (qry x0 b) (key x1 b) (len x2 b) (wgt x3) (bia x4) p q := by
  rw [val_main_v27_apply, val_main_cst_2_apply]
  show Ideal.ofBits .f32 0x00000000#32 + _ = _
  rw [Ideal.ofBits_zero_f32, zero_add]
  exact Finset.sum_congr rfl fun k _ => by
    rw [show idx_main_v27 (ix2 b p) k = ix3 b p k from by coords, soft_at]

/-- The renormalised probabilities. -/
theorem prob_at (b : Fin 16) (p q : Fin 512) :
    val_main_v32 (F := Ideal) x0 x1 x2 x3 x4 (ix3 b p q)
      = Attn.prob (qry x0 b) (key x1 b) (len x2 b) (wgt x3) (bia x4) p q := by
  rw [val_main_v32_apply, soft_at, val_main_v31_apply, val_main_v30_apply, val_main_v28_apply,
    show idx_main_v28 (idx_main_v31 (ix3 b p q)) = ix2 b p from by coords, softSum_at, val_main_v29_apply,
    val_main_cst_3_apply]
  rfl

/-- The weighted sum of the key rows. -/
theorem context_at (b : Fin 16) (p : Fin 512) (h : Fin 768) :
    val_main_v33 (F := Ideal) x0 x1 x2 x3 x4 (ix3 b p h)
      = Attn.context (qry x0 b) (key x1 b) (len x2 b) (wgt x3) (bia x4) p h := by
  rw [val_main_v33_apply]
  unfold Attn.context
  refine Finset.sum_congr rfl fun k _ => ?_
  rw [show lidx_main_v33 (ix3 b p h) k = ix3 b p k from by coords, prob_at]
  exact congrArg (fun t => _ * x1 t) (by coords)

/-- The member's result. -/
theorem result_at (b : Fin 16) (p : Fin 512) (o : Fin 768) :
    val_main_v38 (F := Ideal) x0 x1 x2 x3 x4 (ix3 b p o)
      = Attn.result (qry x0 b) (key x1 b) (len x2 b) (wgt x3) (bia x4) p o := by
  rw [val_main_v38_apply, val_main_v37_apply, val_main_v34_apply, val_main_v36_apply, val_main_v35_apply,
    val_main_call0_v0_apply, val_main_call0_cst_apply]
  unfold Attn.result
  refine congrArg₂ max (congrArg₂ (· + ·) (Finset.sum_congr rfl fun k _ => ?_) (congrArg x4 (by coords))) rfl
  rw [show lidx_main_v34 (ix3 b p o) k = ix3 b p k from by coords, context_at]
  exact congrArg (fun t => _ * x3 t) (by coords)

/-- The reference's result array, index by index: member `i 0`'s attention at row `i 1`, column `i 2`. -/
theorem result_eq :
    val_main_v38 (F := Ideal) x0 x1 x2 x3 x4
      = fun i => Attn.result (qry x0 (i 0)) (key x1 (i 0)) (len x2 (i 0)) (wgt x3) (bia x4) (i 1) (i 2) := by
  funext i
  obtain ⟨b, p, o, rfl⟩ : ∃ (b : Fin 16) (p : Fin 512) (o : Fin 768), i = ix3 b p o := ⟨i 0, i 1, i 2, eq_ix3 i⟩
  exact result_at x0 x1 x2 x3 x4 b p o

end Cert.ReferenceIdeal.Stages

end
-- ==== Proof.KernelMember.lean ====
/-
  One grid point of the kernel computes one batch member's attention (`Attn.lean`).

  The body loads the member's two activation blocks (as [1, 512, 768], viewed [512, 768]), the weight, the bias
  and the member's length word, and stores one [1, 512, 768] block. Read at an index, each of its operations is:

    a matrix product into a zero accumulator        the plain sum of products over the contracted axis;
    the bias reshaped to one row and broadcast      the bias at the column;
    a row statistic reshaped to a column and broadcast   the statistic at the row;
    a row maximum / row sum                          the fold of max from −∞ / the sum over the row;
    the widened and converted bit of `iota < len`    the mask of `Attn.keep`;
    a change of float format                         the identity.

  The intermediate vectors are named here as the body computes them (`linearKeys` … `probs`), their composition
  is checked to be the body's payload, and each is identified, index by index, with the function of `Cert.Attn`
  on the member.
-/
import proofs.«429209_j36197984371338_1_alg».proof.Proof.Gen.KernelIdeal.Skeleton
import proofs.«429209_j36197984371338_1_alg».proof.Proof.Attn
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Member

open Cert.KernelIdeal Cert.KernelIdeal.Gen
open Idealize.ShloMosaic Idealize.ShloMosaic.ValueIdx

/-! ## The three matrix products, read at an index -/

/-! ### `x · Wᵀ`: [512, 768] against [768, 768], both contracted on their second axis -/

theorem lhs_linear_0 (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
theorem lhs_linear_1 (i : S512x768.Idx) (q : dot_S512x768_S768x768_S512x768_1_1_0_0_n_n.contr.Idx) :
    (dot_S512x768_S768x768_S512x768_1_1_0_0_n_n.lhsIdx i q 1).val = (q ⟨0, by decide⟩).val :=
  dot_S512x768_S768x768_S512x768_1_1_0_0_n_n.lhsIdx_val_of_single rfl i q
theorem rhs_linear_0 (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
theorem rhs_linear_1 (i : S512x768.Idx) (q : dot_S512x768_S768x768_S512x768_1_1_0_0_n_n.contr.Idx) :
    (dot_S512x768_S768x768_S512x768_1_1_0_0_n_n.rhsIdx i q 1).val = (q ⟨0, by decide⟩).val :=
  dot_S512x768_S768x768_S512x768_1_1_0_0_n_n.rhsIdx_val_of_single rfl i q

/-- Row `r` of `a` against row `o` of `w`. -/
theorem linear_apply {φ₁ φ₂ : FTy} (a : FVec Ideal S512x768 φ₁) (w : FVec Ideal S768x768 φ₂) (r : Fin 512) (o : Fin 768) :
    matmul dot_S512x768_S768x768_S512x768_1_1_0_0_n_n none a w (constant S512x768 .f32 0x00000000#32) (ix2 r o)
      = ∑ h : Fin 768, a (ix2 r h) * w (ix2 o h) := by
  show FloatOps.matmul dot_S512x768_S768x768_S512x768_1_1_0_0_n_n none a w (constant S512x768 .f32 0x00000000#32) (ix2 r o) = _
  rw [Ideal.matmul_constant_zero_apply, ← Equiv.sum_comp (contrEquiv1 dot_S512x768_S768x768_S512x768_1_1_0_0_n_n 768 rfl rfl).symm]
  refine Finset.sum_congr rfl fun k _ => ?_
  have hk := contrEquiv1_symm_val dot_S512x768_S768x768_S512x768_1_1_0_0_n_n 768 rfl rfl k
  have el : dot_S512x768_S768x768_S512x768_1_1_0_0_n_n.lhsIdx (ix2 r o) ((contrEquiv1 dot_S512x768_S768x768_S512x768_1_1_0_0_n_n 768 rfl rfl).symm k) = ix2 r k := funext fun a => Fin.ext (by
    match a with
    | ⟨0, _⟩ => exact lhs_linear_0 _ _
    | ⟨1, _⟩ => exact (lhs_linear_1 _ _).trans hk)
  have er : dot_S512x768_S768x768_S512x768_1_1_0_0_n_n.rhsIdx (ix2 r o) ((contrEquiv1 dot_S512x768_S768x768_S512x768_1_1_0_0_n_n 768 rfl rfl).symm k) = ix2 o k := funext fun a => Fin.ext (by
    match a with
    | ⟨0, _⟩ => exact rhs_linear_0 _ _
    | ⟨1, _⟩ => exact (rhs_linear_1 _ _).trans hk)
  rw [el, er]

/-! ### The scores: [512, 768] against [512, 768], both contracted on their second axis -/

theorem lhs_score_0 (i : S512x512.Idx) (q : dot_S512x768_S512x768_S512x512_1_1_0_0_n_n.contr.Idx) :
    (dot_S512x768_S512x768_S512x512_1_1_0_0_n_n.lhsIdx i q 0).val = (i 0).val := by
  unfold DotDims.lhsIdx
  rw [dif_neg (show ¬(0 : Fin S512x768.rank) ∈ dot_S512x768_S512x768_S512x512_1_1_0_0_n_n.lhsBatch by decide), dif_pos (show (0 : Fin S512x768.rank) ∈ dot_S512x768_S512x768_S512x512_1_1_0_0_n_n.lhsNonContracting by decide)]
  rfl
theorem lhs_score_1 (i : S512x512.Idx) (q : dot_S512x768_S512x768_S512x512_1_1_0_0_n_n.contr.Idx) :
    (dot_S512x768_S512x768_S512x512_1_1_0_0_n_n.lhsIdx i q 1).val = (q ⟨0, by decide⟩).val :=
  dot_S512x768_S512x768_S512x512_1_1_0_0_n_n.lhsIdx_val_of_single rfl i q
theorem rhs_score_0 (i : S512x512.Idx) (q : dot_S512x768_S512x768_S512x512_1_1_0_0_n_n.contr.Idx) :
    (dot_S512x768_S512x768_S512x512_1_1_0_0_n_n.rhsIdx i q 0).val = (i 1).val := by
  unfold DotDims.rhsIdx
  rw [dif_neg (show ¬(0 : Fin S512x768.rank) ∈ dot_S512x768_S512x768_S512x512_1_1_0_0_n_n.rhsBatch by decide), dif_pos (show (0 : Fin S512x768.rank) ∈ dot_S512x768_S512x768_S512x512_1_1_0_0_n_n.rhsNonContracting by decide)]
  rfl
theorem rhs_score_1 (i : S512x512.Idx) (q : dot_S512x768_S512x768_S512x512_1_1_0_0_n_n.contr.Idx) :
    (dot_S512x768_S512x768_S512x512_1_1_0_0_n_n.rhsIdx i q 1).val = (q ⟨0, by decide⟩).val :=
  dot_S512x768_S512x768_S512x512_1_1_0_0_n_n.rhsIdx_val_of_single rfl i q

/-- Row `p` of `a` against row `q` of `b`. -/
theorem score_apply {φ₁ φ₂ : FTy} (a : FVec Ideal S512x768 φ₁) (b : FVec Ideal S512x768 φ₂) (p q : Fin 512) :
    matmul dot_S512x768_S512x768_S512x512_1_1_0_0_n_n none a b (constant S512x512 .f32 0x00000000#32) (ix2 p q)
      = ∑ h : Fin 768, a (ix2 p h) * b (ix2 q h) := by
  show FloatOps.matmul dot_S512x768_S512x768_S512x512_1_1_0_0_n_n none a b (constant S512x512 .f32 0x00000000#32) (ix2 p q) = _
  rw [Ideal.matmul_constant_zero_apply, ← Equiv.sum_comp (contrEquiv1 dot_S512x768_S512x768_S512x512_1_1_0_0_n_n 768 rfl rfl).symm]
  refine Finset.sum_congr rfl fun k _ => ?_
  have hk := contrEquiv1_symm_val dot_S512x768_S512x768_S512x512_1_1_0_0_n_n 768 rfl rfl k
  have el : dot_S512x768_S512x768_S512x512_1_1_0_0_n_n.lhsIdx (ix2 p q) ((contrEquiv1 dot_S512x768_S512x768_S512x512_1_1_0_0_n_n 768 rfl rfl).symm k) = ix2 p k := funext fun a => Fin.ext (by
    match a with
    | ⟨0, _⟩ => exact lhs_score_0 _ _
    | ⟨1, _⟩ => exact (lhs_score_1 _ _).trans hk)
  have er : dot_S512x768_S512x768_S512x512_1_1_0_0_n_n.rhsIdx (ix2 p q) ((contrEquiv1 dot_S512x768_S512x768_S512x512_1_1_0_0_n_n 768 rfl rfl).symm k) = ix2 q k := funext fun a => Fin.ext (by
    match a with
    | ⟨0, _⟩ => exact rhs_score_0 _ _
    | ⟨1, _⟩ => exact (rhs_score_1 _ _).trans hk)
  rw [el, er]

/-! ### The weighted sum: [512, 512] contracted on its second axis against [512, 768] on its first -/

theorem lhs_context_0 (i : S512x768.Idx) (q : dot_S512x512_S512x768_S512x768_1_0_0_1_n_n.contr.Idx) :
    (dot_S512x512_S512x768_S512x768_1_0_0_1_n_n.lhsIdx i q 0).val = (i 0).val := by
  unfold DotDims.lhsIdx
  rw [dif_neg (show ¬(0 : Fin S512x512.rank) ∈ dot_S512x512_S512x768_S512x768_1_0_0_1_n_n.lhsBatch by decide), dif_pos (show (0 : Fin S512x512.rank) ∈ dot_S512x512_S512x768_S512x768_1_0_0_1_n_n.lhsNonContracting by decide)]
  rfl
theorem lhs_context_1 (i : S512x768.Idx) (q : dot_S512x512_S512x768_S512x768_1_0_0_1_n_n.contr.Idx) :
    (dot_S512x512_S512x768_S512x768_1_0_0_1_n_n.lhsIdx i q 1).val = (q ⟨0, by decide⟩).val :=
  dot_S512x512_S512x768_S512x768_1_0_0_1_n_n.lhsIdx_val_of_single rfl i q
theorem rhs_context_0 (i : S512x768.Idx) (q : dot_S512x512_S512x768_S512x768_1_0_0_1_n_n.contr.Idx) :
    (dot_S512x512_S512x768_S512x768_1_0_0_1_n_n.rhsIdx i q 0).val = (q ⟨0, by decide⟩).val :=
  dot_S512x512_S512x768_S512x768_1_0_0_1_n_n.rhsIdx_val_of_single rfl i q
theorem rhs_context_1 (i : S512x768.Idx) (q : dot_S512x512_S512x768_S512x768_1_0_0_1_n_n.contr.Idx) :
    (dot_S512x512_S512x768_S512x768_1_0_0_1_n_n.rhsIdx i q 1).val = (i 1).val := by
  unfold DotDims.rhsIdx
  rw [dif_neg (show ¬(1 : Fin S512x768.rank) ∈ dot_S512x512_S512x768_S512x768_1_0_0_1_n_n.rhsBatch by decide), dif_pos (show (1 : Fin S512x768.rank) ∈ dot_S512x512_S512x768_S512x768_1_0_0_1_n_n.rhsNonContracting by decide)]
  rfl

/-- Row `p` of `a` against column `h` of `b`. -/
theorem context_apply {φ₁ φ₂ : FTy} (a : FVec Ideal S512x512 φ₁) (b : FVec Ideal S512x768 φ₂) (p : Fin 512) (h : Fin 768) :
    matmul dot_S512x512_S512x768_S512x768_1_0_0_1_n_n none a b (constant S512x768 .f32 0x00000000#32) (ix2 p h)
      = ∑ q : Fin 512, a (ix2 p q) * b (ix2 q h) := by
  show FloatOps.matmul dot_S512x512_S512x768_S512x768_1_0_0_1_n_n none a b (constant S512x768 .f32 0x00000000#32) (ix2 p h) = _
  rw [Ideal.matmul_constant_zero_apply, ← Equiv.sum_comp (contrEquiv1 dot_S512x512_S512x768_S512x768_1_0_0_1_n_n 512 rfl rfl).symm]
  refine Finset.sum_congr rfl fun k _ => ?_
  have hk := contrEquiv1_symm_val dot_S512x512_S512x768_S512x768_1_0_0_1_n_n 512 rfl rfl k
  have el : dot_S512x512_S512x768_S512x768_1_0_0_1_n_n.lhsIdx (ix2 p h) ((contrEquiv1 dot_S512x512_S512x768_S512x768_1_0_0_1_n_n 512 rfl rfl).symm k) = ix2 p k := funext fun a => Fin.ext (by
    match a with
    | ⟨0, _⟩ => exact lhs_context_0 _ _
    | ⟨1, _⟩ => exact (lhs_context_1 _ _).trans hk)
  have er : dot_S512x512_S512x768_S512x768_1_0_0_1_n_n.rhsIdx (ix2 p h) ((contrEquiv1 dot_S512x512_S512x768_S512x768_1_0_0_1_n_n 512 rfl rfl).symm k) = ix2 k h := funext fun a => Fin.ext (by
    match a with
    | ⟨0, _⟩ => exact (rhs_context_0 _ _).trans hk
    | ⟨1, _⟩ => exact rhs_context_1 _ _)
  rw [el, er]

/-! ## Reshapes and broadcasts, read at an index -/

/-- A [1, 512, 768] block viewed [512, 768]: entry (r, h) is entry (0, r, h). -/
theorem rows_at {α : Type} (x : S1x512x768.Idx → α) (r : Fin 512) (h : Fin 768) :
    shapeCast S512x768 x shapeCasts_S1x512x768_S512x768 (ix2 r h) = x (ix3 (0 : Fin 1) r h) :=
  shapeCast_apply x shapeCasts_S1x512x768_S512x768 (ix2 r h) (ix3 (0 : Fin 1) r h) (by
    rw [Shape.rowMajor_val_three, Shape.rowMajor_val_two]
    show (0 * 512 + r.val) * 768 + h.val = r.val * 768 + h.val
    omega)

/-- A [512, 768] result viewed [1, 512, 768]: entry (0, r, o) is entry (r, o). -/
theorem block_at {α : Type} (v : S512x768.Idx → α) (r : Fin 512) (o : Fin 768) :
    shapeCast S1x512x768 v shapeCasts_S512x768_S1x512x768 (ix3 (0 : Fin 1) r o) = v (ix2 r o) :=
  shapeCast_apply v shapeCasts_S512x768_S1x512x768 (ix3 (0 : Fin 1) r o) (ix2 r o) (by
    rw [Shape.rowMajor_val_three, Shape.rowMajor_val_two]
    show r.val * 768 + o.val = (0 * 512 + r.val) * 768 + o.val
    omega)

/-- The bias as one row, broadcast down the rows: the bias at the column. -/
theorem biasRows_at {α : Type} (v : S768.Idx → α) (r : Fin 512) (o : Fin 768) :
    broadcastTo S512x768 (shapeCast S1x768 v shapeCasts_S768_S1x768) broadcasts_S1x768_S512x768 (ix2 r o) = v (ix1 o) := by
  rw [broadcastTo_apply _ broadcasts_S1x768_S512x768 (ix2 r o) (ix2 (0 : Fin 1) o) (by intro a; fin_cases a <;> rfl)]
  exact shapeCast_apply v shapeCasts_S768_S1x768 (ix2 (0 : Fin 1) o) (ix1 o) (by
    rw [Shape.rowMajor_val_one, Shape.rowMajor_val_two]
    show o.val = 0 * 768 + o.val
    omega)

/-- A row statistic as one column: entry (p, 0) is the statistic of row `p`. -/
theorem column_at {α : Type} (v : S512.Idx → α) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

/-- A column broadcast along the rows: entry (p, q) is the column's entry (p, 0). -/
theorem alongRows_at {α : Type} (v : S512x1.Idx → α) (p q : Fin 512) :
    broadcastTo S512x512 v broadcasts_S512x1_S512x512 (ix2 p q) = v (ix2 p (0 : Fin 1)) :=
  broadcastTo_apply v broadcasts_S512x1_S512x512 (ix2 p q) (ix2 p (0 : Fin 1)) (by intro a; fin_cases a <;> rfl)

/-! ## Row statistics -/

/-- The reduced index `p` with column `k` put back is (p, k). -/
theorem lift_row (h : S512x512.Reduces [1] S512) (p : Fin 512) (k : Fin (S512x512.size 1)) :
    h.lift (ix1 p) k = ix2 p (⟨k.val, k.isLt⟩ : Fin 512) := by
  funext c; apply Fin.ext
  fin_cases c <;> rfl

/-- A row's sum. -/
theorem rowSum_at (src : FVec Ideal S512x512 .f32) (hφ : FKind.Formats .f32)
    (hacc : (0x00000000#32 : BitVec FTy.f32.bits) = FKind.add.neutral .f32 hφ) (p : Fin 512) :
    multiReduction .add [1] S512 src 0x00000000#32 reduces_S512x512_S512 hφ hacc (ix1 p) = ∑ q : Fin 512, src (ix2 p q) := by
  rw [Ideal.multiReduction_add_single]
  exact Finset.sum_congr rfl fun k _ => congrArg src (lift_row _ p k)

/-- A row's maximum, from −∞. -/
theorem rowFold_at (src : FVec Ideal S512x512 .f32) (hφ : FKind.Formats .f32)
    (hacc : (0xFF800000#32 : BitVec FTy.f32.bits) = FKind.maximumf.neutral .f32 hφ) (p : Fin 512) :
    multiReduction .maximumf [1] S512 src 0xFF800000#32 reduces_S512x512_S512 hφ hacc (ix1 p)
      = (Finset.univ : Finset (Fin 512)).fold max Attn.negInf fun q => src (ix2 p q) := by
  rw [Ideal.multiReduction_maximumf_single]
  exact congrArg (fun f => Finset.fold max (Ideal.ofBits .f32 0xFF800000#32) f (Finset.univ : Finset (Fin 512)))
    (funext fun k => congrArg src (lift_row _ p k))

/-- The exponential, entry by entry. -/
theorem exp_at {s : Shape} (v : FVec Ideal s .f32) (i : s.Idx) : exp v i = Ideal.exp (v i) := rfl

/-! ## The member's attention, as the body computes it -/

variable (len : BitVec 32) (x0 x1 : Vec Ideal S1x512x768 .f32) (x2 : Vec Ideal S768x768 .f32) (x3 : Vec Ideal S768 .f32)

/-- The member's query-side rows, key-side rows, the weight and the bias by coordinates. -/
abbrev qry : Fin 512 → Fin 768 → EReal := fun p h => x0 (ix3 (0 : Fin 1) p h)
abbrev key : Fin 512 → Fin 768 → EReal := fun q h => x1 (ix3 (0 : Fin 1) q h)
abbrev wgt : Fin 768 → Fin 768 → EReal := fun o h => x2 (ix2 o h)
abbrev bia : Fin 768 → EReal := fun o => x3 (ix1 o)

/-- The keys through the linear layer. -/
def linearKeys : FVec Ideal S512x768 .f32 :=
  addf (matmul dot_S512x768_S768x768_S512x768_1_1_0_0_n_n none (k0_pay2 x1) (k0_pay3 x2) (constant S512x768 .f32 0x00000000#32))
    (broadcastTo S512x768 (shapeCast S1x768 x3 shapeCasts_S768_S1x768) broadcasts_S1x768_S512x768)

/-- The length mask. -/
def keepMask : FVec Ideal S512x512 .f32 :=
  sitofp .f32 (extui 32 (cmpi .slt (iota .tc S512x512 32 [1] iota_S512x512_d1_w32) (broadcast S512x512 len)) natLt_1_32)

/-- The masked scores. -/
def maskedScores : FVec Ideal S512x512 .f32 :=
  mulf (matmul dot_S512x768_S512x768_S512x512_1_1_0_0_n_n none (truncf .bf16 (shapeCast S512x768 x0 shapeCasts_S1x512x768_S512x768) bitsLt_bf16_f32)
      (truncf .bf16 (linearKeys x1 x2 x3) bitsLt_bf16_f32) (constant S512x512 .f32 0x00000000#32))
    (keepMask len)

/-- The softmax's shift, row by row. -/
def shifts : FVec Ideal S512 .f32 :=
  maximumf (broadcast S512 (Scalar.ofBits .f32 0xFF800000#32))
    (multiReduction .maximumf [1] S512 (maskedScores len x0 x1 x2 x3) 0xFF800000#32 reduces_S512x512_S512 (.inl rfl) rfl)

/-- The unnormalised weights. -/
def weights : FVec Ideal S512x512 .f32 :=
  exp (subf (maskedScores len x0 x1 x2 x3)
    (broadcastTo S512x512 (shapeCast S512x1 (shifts len x0 x1 x2 x3) shapeCasts_S512_S512x1) broadcasts_S512x1_S512x512))

/-- The softmax, masked again. -/
def softs : FVec Ideal S512x512 .f32 :=
  mulf (divf (weights len x0 x1 x2 x3)
      (broadcastTo S512x512 (shapeCast S512x1
        (multiReduction .add [1] S512 (weights len x0 x1 x2 x3) 0x00000000#32 reduces_S512x512_S512 (.inl rfl) rfl)
        shapeCasts_S512_S512x1) broadcasts_S512x1_S512x512))
    (keepMask len)

/-- The renormalised probabilities. -/
def probs : FVec Ideal S512x512 .f32 :=
  divf (softs len x0 x1 x2 x3)
    (broadcastTo S512x512
      (addf (shapeCast S512x1
          (multiReduction .add [1] S512 (softs len x0 x1 x2 x3) 0x00000000#32 reduces_S512x512_S512 (.inl rfl) rfl)
          shapeCasts_S512_S512x1)
        (broadcast S512x1 (Scalar.ofBits .f32 0x29E12E13#32)))
      broadcasts_S512x1_S512x512)

/-- These compose to the body's payload for the probabilities. -/
theorem pay4_eq : k0_pay4 (F := Ideal) len x0 x1 x2 x3 = truncf .bf16 (probs len x0 x1 x2 x3) bitsLt_bf16_f32 := rfl

theorem linearKeys_at (q : Fin 512) (o : Fin 768) :
    linearKeys x1 x2 x3 (ix2 q o) = Attn.transformed (key x1) (wgt x2) (bia x3) q o := by
  unfold linearKeys Attn.transformed
  rw [addf_apply, linear_apply, biasRows_at]
  refine congrArg (· + _) (Finset.sum_congr rfl fun h _ => ?_)
  exact congrArg (· * _) (rows_at x1 q h)

theorem keepMask_at (p q : Fin 512) : keepMask len (ix2 p q) = Attn.keep len q := by
  unfold keepMask Attn.keep
  rw [sitofp_extui_eq_uitofp]
  show FloatOps.uitofp .f32 (IntOp.cmpi .slt (iota .tc S512x512 32 [1] iota_S512x512_d1_w32 (ix2 p q)) len) = _
  rw [iota_single_apply]

theorem maskedScores_at (p q : Fin 512) :
    maskedScores len x0 x1 x2 x3 (ix2 p q) = Attn.masked (qry x0) (key x1) len (wgt x2) (bia x3) p q := by
  unfold maskedScores Attn.masked Attn.score
  rw [mulf_apply, score_apply, keepMask_at]
  refine congrArg (· * _) (Finset.sum_congr rfl fun h _ => ?_)
  exact congrArg₂ (· * ·) (rows_at x0 p h) (linearKeys_at x1 x2 x3 q h)

theorem shifts_at (p : Fin 512) :
    shifts len x0 x1 x2 x3 (ix1 p) = Attn.rowMax (qry x0) (key x1) len (wgt x2) (bia x3) p := by
  unfold shifts Attn.rowMax
  rw [maximumf_apply]
  refine congrArg₂ max rfl ((rowFold_at _ _ _ p).trans ?_)
  exact congrArg (fun f => Finset.fold max Attn.negInf f (Finset.univ : Finset (Fin 512)))
    (funext fun q => maskedScores_at len x0 x1 x2 x3 p q)

theorem weights_at (p q : Fin 512) :
    weights len x0 x1 x2 x3 (ix2 p q) = Attn.weight (qry x0) (key x1) len (wgt x2) (bia x3) p q := by
  unfold weights Attn.weight
  rw [exp_at, subf_apply, alongRows_at, column_at, maskedScores_at, shifts_at]

theorem weightSum_at (p : Fin 512) :
    multiReduction .add [1] S512 (weights len x0 x1 x2 x3) 0x00000000#32 reduces_S512x512_S512 (.inl rfl) rfl (ix1 p)
      = ∑ q : Fin 512, Attn.weight (qry x0) (key x1) len (wgt x2) (bia x3) p q := by
  refine (rowSum_at _ _ _ p).trans ?_
  exact Finset.sum_congr rfl fun q _ => weights_at len x0 x1 x2 x3 p q

theorem softs_at (p q : Fin 512) :
    softs len x0 x1 x2 x3 (ix2 p q) = Attn.soft (qry x0) (key x1) len (wgt x2) (bia x3) p q := by
  unfold softs Attn.soft
  rw [mulf_apply, divf_apply, alongRows_at, column_at, weights_at, weightSum_at, keepMask_at]

theorem softSum_at (p : Fin 512) :
    multiReduction .add [1] S512 (softs len x0 x1 x2 x3) 0x00000000#32 reduces_S512x512_S512 (.inl rfl) rfl (ix1 p)
      = ∑ q : Fin 512, Attn.soft (qry x0) (key x1) len (wgt x2) (bia x3) p q := by
  refine (rowSum_at _ _ _ p).trans ?_
  exact Finset.sum_congr rfl fun q _ => softs_at len x0 x1 x2 x3 p q

theorem probs_at (p q : Fin 512) :
    probs len x0 x1 x2 x3 (ix2 p q) = Attn.prob (qry x0) (key x1) len (wgt x2) (bia x3) p q := by
  unfold probs Attn.prob
  rw [divf_apply, alongRows_at, addf_apply, column_at, broadcast_apply, softs_at, softSum_at]
  rfl

/-- What the body stores: the member's result, index by index. -/
theorem stored_at (p : Fin 512) (o : Fin 768) :
    k0_pay1 (F := Ideal) (k0_pay2 x1) (k0_pay3 x2) x3 (k0_pay4 len x0 x1 x2 x3) (constant S512x768 .f32 0x00000000#32)
        (ix3 (0 : Fin 1) p o)
      = Attn.result (qry x0) (key x1) len (wgt x2) (bia x3) p o := by
  unfold k0_pay1 Attn.result Attn.context
  rw [block_at, maximumf_apply, addf_apply, linear_apply, biasRows_at, broadcast_apply]
  refine congrArg₂ max (congrArg (· + _) (Finset.sum_congr rfl fun h _ => ?_)) rfl
  refine congrArg (· * _) ?_
  rw [truncf_apply, context_apply, pay4_eq]
  refine Finset.sum_congr rfl fun q _ => ?_
  exact congrArg₂ (· * ·) (probs_at len x0 x1 x2 x3 p q) (rows_at x1 q h)

end Cert.KernelIdeal.Member

end
-- ==== Proof.AttnArrays.lean ====
/-
  The attention of every batch member, on whole arrays.

  Entry (b, p, o) of the result is `Attn.result` of member `b`: of rows `b` of the two [16, 512, 768]
  activations and of word `b` of the lengths, with the weight and the bias shared by all members. Both
  programs' result arrays are stated as this one function of the five argument arrays.
-/
import proofs.«429209_j36197984371338_1_alg».proof.Proof.Attn
import Idealize.ShloMosaic.Lib.ValueIdx

noncomputable section

namespace Cert.Attn

open Idealize.ShloMosaic Idealize.ShloMosaic.ValueIdx

/-- The whole result array as a function of the argument arrays. -/
def onArrays (a0 a1 : (⟨3, ![16, 512, 768]⟩ : Shape).Idx → EReal) (a2 : (⟨1, ![16]⟩ : Shape).Idx → BitVec 32)
    (a3 : (⟨2, ![768, 768]⟩ : Shape).Idx → EReal) (a4 : (⟨1, ![768]⟩ : Shape).Idx → EReal) :
    (⟨3, ![16, 512, 768]⟩ : Shape).Idx → EReal :=
  fun i => result (fun p h => a0 (ix3 (i 0) p h)) (fun q h => a1 (ix3 (i 0) q h)) (a2 (ix1 (i 0)))
    (fun o h => a3 (ix2 o h)) (fun o => a4 (ix1 o)) (i 1) (i 2)

end Cert.Attn

end
-- ==== Proof.KernelValue.lean ====
/-
  After the kernel's run its result array holds every batch member's attention.

  The grid has one point per batch member. Point `t` is handed block `t` of each activation (rows (t, ·, ·)),
  the whole weight and bias, and reads word `t` of the lengths from the table in scalar memory; its one store
  covers the output block, so what it writes back is `Attn.result` of member `t` (`KernelMember.lean`), which is
  block `t` of `Attn.onArrays` of the argument arrays. The sixteen blocks tile the array — entry (b, p, o) lies
  in block `b` — so the array ends at `Attn.onArrays` of the arguments.
-/
import proofs.«429209_j36197984371338_1_alg».proof.Proof.Gen.KernelIdeal.Frame
import proofs.«429209_j36197984371338_1_alg».proof.Proof.KernelMember
import proofs.«429209_j36197984371338_1_alg».proof.Proof.AttnArrays
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Whole

open Cert.KernelIdeal Cert.KernelIdeal.Gen Idealize.ShloMosaic.ValueIdx

variable (m : (ℓ : Loc nD τ sig) → Buf (Elt Ideal) ℓ) (ρ : Dev nD → PrngReg)

/-- No index map reads the table of lengths, so the pipeline asks nothing of its contents. -/
theorem ok : Ok m := trivial

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body leaves in the output block -/

/-- The length word the body loads at grid coordinates `i`: the table read at the coordinate. -/
def lenWord (c : Dev nD) (i : grid0.Coords) (xt0 : TbBuf0 (F := Ideal) c tbM0_0) : BitVec 32 :=
  View.readAt (Elt Ideal) tbM0_0.view (Rect.unit (s := S16) (k0_off1 i) S1.size (k0_off1_inb i)).toLoadRect xt0
    (Shape.Idx.first (numel1_S1 ▸ Nat.one_pos : 0 < S1.numel))

/-- The body's one store covers the output block: the block ends at the payload of the loaded blocks and word. -/
theorem stored_eq (c : Dev nD) (i : grid0.Coords) (arg2 : Memref sig .tc .vmem S1x512x768 .f32) (harg2 : arg2.IsWhole)
    (arg3 : Memref sig .tc .vmem S1x512x768 .f32) (harg3 : arg3.IsWhole) (arg4 : Memref sig .tc .vmem S768x768 .f32) (harg4 : arg4.IsWhole)
    (arg5 : Memref sig .tc .vmem S768 .f32) (harg5 : arg5.IsWhole) (arg6 : Memref sig .tc .vmem S1x512x768 .f32) (harg6 : arg6.IsWhole)
    (x0 x1 : Vec Ideal S1x512x768 .f32) (x2 : Vec Ideal S768x768 .f32) (x3 : Vec Ideal S768 .f32) (xt0 : TbBuf0 (F := Ideal) c tbM0_0) :
    out0_A_4 c i arg2 harg2 arg3 harg3 arg4 harg4 arg5 harg5 arg6 harg6 x0 x1 x2 x3 xt0
      = k0_pay1 (k0_pay2 x1) (k0_pay3 x2) x3 (k0_pay4 (lenWord c i xt0) x0 x1 x2 x3) (constant S512x768 .f32 0x00000000#32) := by
  unfold out0_A_4 lenWord
  rw [View.read_writes_eq_canon _ _ _ (cover0_A_4 c i arg2 harg2 arg3 harg3 arg4 harg4 arg5 harg5 arg6 harg6 x0 x1 x2 x3 xt0)]
  unfold kernelRun0_A
  dsimp only
  sl_unfold_words
  rw [View.canon_unit_zero hz3]
  simp only [View.readAt_eq_ld, harg2.read_unread, harg3.read_unread, harg4.read_unread, harg5.read_unread,
    View.ld_unit_zero (S := S1x512x768) hz3, View.ld_unit_zero (S := S768x768) hz2, View.ld_unit_zero (S := S768) hz1]

/-- The loaded word is the table's word at the grid coordinate. -/
theorem lenWord_eq (c : Dev nD) (i : grid0.Coords) (xt0 : TbBuf0 (F := Ideal) c tbM0_0) :
    lenWord c i xt0 = xt0 (ix1 (i 0)) := by
  unfold lenWord
  rw [View.readAt_eq_ld]
  show View.ld xt0 _ _ = _
  unfold View.ld
  refine congrArg xt0 (funext fun a => Fin.ext ?_)
  fin_cases a
  show k0_off1 i 0 + 1 * 0 = (i 0).val
  have e : k0_off1 i 0 = (i 0).val := congrFun (k0_off1_eq i) 0
  omega

/-! ## The blocks a point is handed -/

/-- The index maps over the grid: the activations and the output move with the point, the weight and bias stay; and the
    point's one coordinate is its number. -/
theorem maps : ∀ t : Fin grid0.N,
    cc0_transform_0 (grid0.coords t) = ![t.val, 0, 0] ∧ cc0_transform_1 (grid0.coords t) = ![t.val, 0, 0]
    ∧ cc0_transform_2 (grid0.coords t) = ![0, 0] ∧ cc0_transform_3 (grid0.coords t) = ![0]
    ∧ cc0_transform_4 (grid0.coords t) = ![t.val, 0, 0] ∧ ((grid0.coords t) 0).val = t.val := by decide +kernel

/-- Point `t`'s blocks, at their literal types. -/
abbrev pblk (c : Dev nD) (t : Fin (cfgM m (ok m)).N) : Vec Ideal S1x512x768 .f32 := iblk m (ok m) c 0 t
abbrev kblk (c : Dev nD) (t : Fin (cfgM m (ok m)).N) : Vec Ideal S1x512x768 .f32 := iblk m (ok m) c 1 t
abbrev wblk (c : Dev nD) (t : Fin (cfgM m (ok m)).N) : Vec Ideal S768x768 .f32 := iblk m (ok m) c 2 t
abbrev bblk (c : Dev nD) (t : Fin (cfgM m (ok m)).N) : Vec Ideal S768 .f32 := iblk m (ok m) c 3 t

/-- The query-side block at point `t` is member `t` of the first argument. -/
theorem pblk_at (c : Dev nD) (t : Fin (cfgM m (ok m)).N) (p : Fin 512) (h : Fin 768) :
    pblk m c t (ix3 (0 : Fin 1) p h) = V m c main_arg0 (ix3 (⟨t.val, t.isLt⟩ : Fin 16) p h) := by
  show V m c main_arg0 ((((cfgM m (ok m)).win 0).blk t).view.emb (ix3 (0 : Fin 1) p h)) = _
  refine congrArg (V m c main_arg0) (funext fun a => Fin.ext ?_)
  obtain ⟨e, -⟩ := maps t
  match a with
  | ⟨0, _⟩ => show cc0_transform_0 (grid0.coords t) 0 * 1 + 1 * 0 = t.val; have h0 : cc0_transform_0 (grid0.coords t) 0 = t.val := congrFun e 0; omega
  | ⟨1, _⟩ => show cc0_transform_0 (grid0.coords t) 1 * 512 + 1 * p.val = p.val; have h1 : cc0_transform_0 (grid0.coords t) 1 = 0 := congrFun e 1; omega
  | ⟨2, _⟩ => show cc0_transform_0 (grid0.coords t) 2 * 768 + 1 * h.val = h.val; have h2 : cc0_transform_0 (grid0.coords t) 2 = 0 := congrFun e 2; omega

/-- The key-side block at point `t` is member `t` of the second argument. -/
theorem kblk_at (c : Dev nD) (t : Fin (cfgM m (ok m)).N) (q : Fin 512) (h : Fin 768) :
    kblk m c t (ix3 (0 : Fin 1) q h) = V m c main_arg1 (ix3 (⟨t.val, t.isLt⟩ : Fin 16) q h) := by
  show V m c main_arg1 ((((cfgM m (ok m)).win 1).blk t).view.emb (ix3 (0 : Fin 1) q h)) = _
  refine congrArg (V m c main_arg1) (funext fun a => Fin.ext ?_)
  obtain ⟨-, e, -⟩ := maps t
  match a with
  | ⟨0, _⟩ => show cc0_transform_1 (grid0.coords t) 0 * 1 + 1 * 0 = t.val; have h0 : cc0_transform_1 (grid0.coords t) 0 = t.val := congrFun e 0; omega
  | ⟨1, _⟩ => show cc0_transform_1 (grid0.coords t) 1 * 512 + 1 * q.val = q.val; have h1 : cc0_transform_1 (grid0.coords t) 1 = 0 := congrFun e 1; omega
  | ⟨2, _⟩ => show cc0_transform_1 (grid0.coords t) 2 * 768 + 1 * h.val = h.val; have h2 : cc0_transform_1 (grid0.coords t) 2 = 0 := congrFun e 2; omega

/-- The weight's block is the whole weight, at every point. -/
theorem wblk_at (c : Dev nD) (t : Fin (cfgM m (ok m)).N) (o h : Fin 768) :
    wblk m c t (ix2 o h) = V m c main_arg3 (ix2 o h) := by
  show V m c main_arg3 ((((cfgM m (ok m)).win 2).blk t).view.emb (ix2 o h)) = _
  refine congrArg (V m c main_arg3) (funext fun a => Fin.ext ?_)
  obtain ⟨-, -, e, -⟩ := maps t
  match a with
  | ⟨0, _⟩ => show cc0_transform_2 (grid0.coords t) 0 * 768 + 1 * o.val = o.val; have h0 : cc0_transform_2 (grid0.coords t) 0 = 0 := congrFun e 0; omega
  | ⟨1, _⟩ => show cc0_transform_2 (grid0.coords t) 1 * 768 + 1 * h.val = h.val; have h1 : cc0_transform_2 (grid0.coords t) 1 = 0 := congrFun e 1; omega

/-- The bias's block is the whole bias, at every point. -/
theorem bblk_at (c : Dev nD) (t : Fin (cfgM m (ok m)).N) (o : Fin 768) :
    bblk m c t (ix1 o) = V m c main_arg4 (ix1 o) := by
  show V m c main_arg4 ((((cfgM m (ok m)).win 3).blk t).view.emb (ix1 o)) = _
  refine congrArg (V m c main_arg4) (funext fun a => Fin.ext ?_)
  obtain ⟨-, -, -, e, -⟩ := maps t
  match a with
  | ⟨0, _⟩ => show cc0_transform_3 (grid0.coords t) 0 * 768 + 1 * o.val = o.val; have h0 : cc0_transform_3 (grid0.coords t) 0 = 0 := congrFun e 0; omega

/-- The word point `t` loads is word `t` of the third argument. -/
theorem word_at (c : Dev nD) (t : Fin (cfgM m (ok m)).N) :
    lenWord c (grid0.coords t) (tbl m 0) = V m c main_arg2 (ix1 (⟨t.val, t.isLt⟩ : Fin 16)) := by
  refine (lenWord_eq c (grid0.coords t) (tbl m 0)).trans ?_
  obtain rfl : c = 0 := Subsingleton.elim _ _
  show V m 0 main_arg2 (ix1 ((grid0.coords t) 0)) = _
  refine congrArg (V m 0 main_arg2) (funext fun a => Fin.ext ?_)
  obtain ⟨-, -, -, -, -, e⟩ := maps t
  fin_cases a
  exact e

/-! ## The result array -/

/-- The attention of every member, of the arrays as the region finds them. -/
abbrev target (c : Dev nD) : Buf (Elt Ideal) ((c : Thread nD τ).loc main_v0) :=
  Attn.onArrays (V m c main_arg0) (V m c main_arg1) (V m c main_arg2) (V m c main_arg3) (V m c main_arg4)

/-- What point `t` stores, entry by entry: member `t`'s attention. -/
theorem stored_block (c : Dev nD) (t : Fin (cfgM m (ok m)).N) (j : S1x512x768.Idx) :
    k0_pay1 (F := Ideal) (k0_pay2 (kblk m c t)) (k0_pay3 (wblk m c t)) (bblk m c t)
        (k0_pay4 (lenWord c (grid0.coords t) (tbl m 0)) (pblk m c t) (kblk m c t) (wblk m c t) (bblk m c t))
        (constant S512x768 .f32 0x00000000#32) j
      = target m c (ix3 (⟨t.val, t.isLt⟩ : Fin 16) (j 1) (j 2)) := by
  obtain ⟨z, p, o, rfl⟩ : ∃ (z : Fin 1) (p : Fin 512) (o : Fin 768), j = ix3 z p o := ⟨j 0, j 1, j 2, eq_ix3 j⟩
  obtain rfl : z = 0 := Subsingleton.elim _ _
  refine (Member.stored_at (lenWord c (grid0.coords t) (tbl m 0)) (pblk m c t) (kblk m c t) (wblk m c t) (bblk m c t) p o).trans ?_
  have e0 : Member.qry (pblk m c t) = fun p h => V m c main_arg0 (ix3 (⟨t.val, t.isLt⟩ : Fin 16) p h) :=
    funext fun p => funext fun h => pblk_at m c t p h
  have e1 : Member.key (kblk m c t) = fun q h => V m c main_arg1 (ix3 (⟨t.val, t.isLt⟩ : Fin 16) q h) :=
    funext fun q => funext fun h => kblk_at m c t q h
  have e2 : Member.wgt (wblk m c t) = fun o h => V m c main_arg3 (ix2 o h) :=
    funext fun o => funext fun h => wblk_at m c t o h
  have e3 : Member.bia (bblk m c t) = fun o => V m c main_arg4 (ix1 o) := funext fun o => bblk_at m c t o
  rw [e0, e1, e2, e3, word_at]
  rfl

/-- Entry `j` of point `t`'s output block sits at (t, j 1, j 2) in the array. -/
theorem emb_out (t : Fin (cfgM m (ok m)).N) (j : S1x512x768.Idx) :
    (((cfgM m (ok m)).win 4).blk t).view.emb j = ix3 (⟨t.val, t.isLt⟩ : Fin 16) (j 1) (j 2) := by
  funext a; apply Fin.ext
  obtain ⟨-, -, -, -, e, -⟩ := maps t
  match a with
  | ⟨0, _⟩ => show cc0_transform_4 (grid0.coords t) 0 * 1 + 1 * (j 0).val = t.val; have h0 : cc0_transform_4 (grid0.coords t) 0 = t.val := congrFun e 0; have hj : (j 0).val < 1 := (j 0).isLt; omega
  | ⟨1, _⟩ => show cc0_transform_4 (grid0.coords t) 1 * 512 + 1 * (j 1).val = (j 1).val; have h1 : cc0_transform_4 (grid0.coords t) 1 = 0 := congrFun e 1; omega
  | ⟨2, _⟩ => show cc0_transform_4 (grid0.coords t) 2 * 768 + 1 * (j 2).val = (j 2).val; have h2 : cc0_transform_4 (grid0.coords t) 2 = 0 := congrFun e 2; omega

/-- So the target there is the target at (t, j 1, j 2). -/
theorem block_entry (c : Dev nD) (t : Fin (cfgM m (ok m)).N) (j : S1x512x768.Idx) :
    target m c (ix3 (⟨t.val, t.isLt⟩ : Fin 16) (j 1) (j 2)) = target m c ((((cfgM m (ok m)).win 4).blk t).view.emb j) :=
  congrArg (target m c) (emb_out m t j).symm

/-- What point `t` writes back is block `t` of the target. -/
theorem flushed_eq (c : Dev nD) (t : Fin (cfgM m (ok m)).N) :
    (dats m (ok m) 0 c).flushed 4 t = (((cfgM m (ok m)).win 4).blk t).view.read (Elt Ideal) (target m c) := by
  show ((cfgM m (ok m)).win 4).cut (grid0.coords t) ((dats m (ok m) 0 c).after 4 t) = _
  rw [after0_4]
  unfold outsAt0
  funext j
  refine (congrFun (stored_eq c (grid0.coords t) (ms0_0 m (ok m) t) (hs0_0 m (ok m) t) (ms0_1 m (ok m) t) (hs0_1 m (ok m) t)
    (ms0_2 m (ok m) t) (hs0_2 m (ok m) t) (ms0_3 m (ok m) t) (hs0_3 m (ok m) t) (ms0_4 m (ok m) t) (hs0_4 m (ok m) t)
    (pblk m c t) (kblk m c t) (wblk m c t) (bblk m c t) (tbl m 0)) _).trans ?_
  refine (stored_block m c t _).trans ?_
  exact block_entry m c t j

/-- Entry (b, p, o) lies in point `b`'s block, and every point writes its block back: the sixteen blocks tile the array. -/
theorem covered (i : S16x512x768.Idx) :
    ∃ t : Fin (cfgM m (ok m)).N, ((cfgM m (ok m)).win 4).flush t = true ∧ i ∈ (((cfgM m (ok m)).win 4).blk t).view.set := by
  obtain ⟨b, hb⟩ : ∃ b : Fin (cfgM m (ok m)).N, b.val = (i 0).val := ⟨⟨(i 0).val, (i 0).isLt⟩, rfl⟩
  refine ⟨b, flush0_4 (adm m (ok m)) b, ?_⟩
  have hi : (((cfgM m (ok m)).win 4).blk b).view.emb (ix3 (0 : Fin 1) (i 1) (i 2)) = i :=
    (emb_out m b (ix3 (0 : Fin 1) (i 1) (i 2))).trans (by
      funext a; apply Fin.ext
      match a with
      | ⟨0, _⟩ => exact hb
      | ⟨1, _⟩ => rfl
      | ⟨2, _⟩ => rfl)
  exact Eq.mp (congrArg (fun x => x ∈ (((cfgM m (ok m)).win 4).blk b).view.set) hi)
    ((((cfgM m (ok m)).win 4).blk b).view.emb_mem_set (ix3 (0 : Fin 1) (i 1) (i 2)))

/-- So the array ends at the target. -/
theorem final (c : Dev nD) : (dats m (ok m) 0 c).arrAt 4 (cfgM m (ok m)).N = target m c :=
  (dats m (ok m) 0 c).arrAt_eq_of_cover 4 (target m c) (fun t _ => flushed_eq m c t) (covered m)

/-- The run: every weakly fair execution ends with the result array at the attention of the launch contents of the
    five arguments, and the arguments unchanged. -/
theorem run : θ_run defs (onTc (τ := τ) (main (F := Ideal))) ⟨m, fun _ => 0, ρ⟩ fun r => ∀ c : Dev nD,
      r.2.mem ((c.tc : Thread nD τ).loc main_v0)
        = Attn.onArrays (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 4).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c)))⟩)
    (run_main m ρ (ok m))

end Cert.KernelIdeal.Whole

end
-- ==== Proof.lean ====
/-
  Masked, renormalised single-match attention: the Pallas kernel against its jnp reference, over the extended reals.

  For each of 16 batch members, with query-side rows P (512 × 768), key-side rows Q (512 × 768), a valid length
  `len`, a weight W (768 × 768) and a bias b, both programs compute

    T = Q · Wᵀ + b,   S = P · Tᵀ,   M = S ⊙ keep,   keep q = [q < len],
    A = softmax over each row of M (shifted by the row's maximum), masked again by `keep`,
    R = A / (row sums of A + ε),   C = R · Q,   result = max (C · Wᵀ + b, 0).

  The kernel does this once per grid point on one member's blocks, with its matrix products fed bf16 operands; the
  reference does it on the whole stacks with `dot_general`. At the ideal instance a change of float format is the
  identity, a product into a zero accumulator is the plain sum of products, and the kernel's widened-then-converted
  comparison bit is the reference's converted bit, so the two programs are the same chain of exact operations on the
  same entries: `Cert.Attn` states that chain once, `KernelMember` and `KernelValue` read the kernel's result array
  as it, `RefStages` reads the reference's. The literals −∞, ε and 0 are the same f32 words on both sides and are never
  evaluated; no algebraic law is used, so the finiteness of the inputs is never needed.

  Frames: the kernel's index maps do not read its prefetched table of lengths, so the pipeline's side condition on the
  table is empty and the generated frames apply as they stand; the reference's frame is its run with the result dropped.
  The ideal pass rewrote nothing, so the kernel's idealization is its own text read at the ideal instance.
-/
import proofs.«429209_j36197984371338_1_alg».proof.Defs
import proofs.«429209_j36197984371338_1_alg».proof.Proof.Gen.Kernel
import proofs.«429209_j36197984371338_1_alg».proof.Proof.Gen.Kernel.Skeleton
import proofs.«429209_j36197984371338_1_alg».proof.Proof.Gen.Kernel.Launch
import proofs.«429209_j36197984371338_1_alg».proof.Proof.Gen.Kernel.Points
import proofs.«429209_j36197984371338_1_alg».proof.Proof.Gen.Kernel.Frame
import proofs.«429209_j36197984371338_1_alg».proof.Proof.Gen.KernelIdeal
import proofs.«429209_j36197984371338_1_alg».proof.Proof.Gen.KernelIdeal.Skeleton
import proofs.«429209_j36197984371338_1_alg».proof.Proof.Gen.KernelIdeal.Launch
import proofs.«429209_j36197984371338_1_alg».proof.Proof.Gen.KernelIdeal.Points
import proofs.«429209_j36197984371338_1_alg».proof.Proof.Gen.KernelIdeal.Frame
import proofs.«429209_j36197984371338_1_alg».proof.Proof.Gen.ReferenceIdeal
import proofs.«429209_j36197984371338_1_alg».proof.Proof.Gen.ReferenceIdeal.Run
import proofs.«429209_j36197984371338_1_alg».proof.Proof.Gen.ReferenceIdeal.Read
import proofs.«429209_j36197984371338_1_alg».proof.Proof.Gen.Pre_finite_inputs
import proofs.«429209_j36197984371338_1_alg».proof.Proof.RefStages
import proofs.«429209_j36197984371338_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: its index maps read no table word. -/
theorem frame_kernel : Cert.frame_Kernel := fun m ρ _ => Cert.Kernel.Gen.frame m ρ trivial

/-- So does the kernel read at the ideal instance. -/
theorem frame_kernelIdeal : Cert.frame_KernelIdeal := fun m ρ _ => Cert.KernelIdeal.Gen.frame m ρ trivial

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at the attention of every
    batch member of those arguments. -/
theorem algebraic : Cert.algebraic_KernelIdeal_ReferenceIdeal := by
  intro m ρ m' ρ' _ hagree
  refine ⟨fun c => Cert.Attn.onArrays (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Stages.result_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
